-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000x64 : Shape := ⟨3, ![2, 800000, 64]⟩
abbrev S_ : Shape := ⟨0, ![]⟩

class Facts : Prop where
  bcast_S_S2x800000x64 : S_.BroadcastsInDim S2x800000x64 (![] : Fin 0 → Fin S2x800000x64.rank)
  reducesTo_S2x800000x64_S_d0_1_2 : S2x800000x64.ReducesTo [0, 1, 2] S_
  h_S_ : 0 < S_.numel

variable [Facts]

def fn {F : FTy → Type} [FloatOps F] (main_arg0 : FVec F S2x800000x64 .f32) : IVec S_ 1 :=
  let main_v0 : FVec F S2x800000x64 .f32 := Host.absf main_arg0
  let main_cst : FVec F S_ .f32 := constant S_ .f32 0x7F800000#32
  let main_v1 : FVec F S2x800000x64 .f32 := broadcastInDim S2x800000x64 ![] bcast_S_S2x800000x64 main_cst
  let main_v2 : IVec S2x800000x64 1 := cmpf .olt main_v0 main_v1
  let main_c : IVec S_ 1 := constantI S_ 1 1#1
  let main_v3 : IVec S_ 1 := (fun x v => Host.reduce IntOp.andi x v reducesTo_S2x800000x64_S_d0_1_2 h_S_) main_v2 main_c
  main_v3
-- ==== Kernel.lean ====
abbrev S2x800000x64 : Shape := ⟨3, ![2, 800000, 64]⟩
abbrev S2x400000x128 : Shape := ⟨3, ![2, 400000, 128]⟩
abbrev S400000x2 : Shape := ⟨2, ![400000, 2]⟩
abbrev S2x8192x128 : Shape := ⟨3, ![2, 8192, 128]⟩
abbrev S8192x2 : Shape := ⟨2, ![8192, 2]⟩
abbrev S1x8192x128 : Shape := ⟨3, ![1, 8192, 128]⟩
abbrev S8192x128 : Shape := ⟨2, ![8192, 128]⟩
abbrev S8192x64 : Shape := ⟨2, ![8192, 64]⟩
abbrev S8192 : Shape := ⟨1, ![8192]⟩
abbrev S8192x1 : Shape := ⟨2, ![8192, 1]⟩
abbrev S800000 : Shape := ⟨1, ![800000]⟩

abbrev nBuf : Space → Nat
  | .hbm => 4
  | .vmem => 4
  | .smem => 0
  | _ => 0

abbrev bufTy : (tb : Table) → Fin (tcTables nBuf tb) → BufTy
  | .hbm, ⟨0, _⟩ => ⟨S2x800000x64, .f32⟩
  | .hbm, ⟨1, _⟩ => ⟨S2x400000x128, .f32⟩
  | .hbm, ⟨2, _⟩ => ⟨S400000x2, .f32⟩
  | .hbm, ⟨3, _⟩ => ⟨S800000, .f32⟩
  | .local _ .vmem, ⟨0, _⟩ => ⟨S2x8192x128, .f32⟩
  | .local _ .vmem, ⟨1, _⟩ => ⟨S2x8192x128, .f32⟩
  | .local _ .vmem, ⟨2, _⟩ => ⟨S8192x2, .f32⟩
  | .local _ .vmem, ⟨3, _⟩ => ⟨S8192x2, .f32⟩
  | _, _ => ⟨S2x800000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![49], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S2x800000x64_S2x400000x128 : S2x800000x64.ShapeCasts S2x400000x128
  inb_S2x8192x128_S1x8192x128_0_0_0 : ∀ a, (![0, 0, 0] : Fin 3 → Nat) a + S1x8192x128.size a ≤ S2x8192x128.size a
  h_S1x8192x128 : 0 < S1x8192x128.numel
  shapeCasts_S1x8192x128_S8192x128 : S1x8192x128.ShapeCasts S8192x128
  inb_S2x8192x128_S1x8192x128_1_0_0 : ∀ a, (![1, 0, 0] : Fin 3 → Nat) a + S1x8192x128.size a ≤ S2x8192x128.size a
  slices_S8192x128_o0_0_S8192x64 : S8192x128.Slices ![0, 0] S8192x64
  reduces_S8192x64_S8192 : S8192x64.Reduces [1] S8192
  shapeCasts_S8192_S8192x1 : S8192.ShapeCasts S8192x1
  slices_S8192x128_o0_64_S8192x64 : S8192x128.Slices ![0, 64] S8192x64
  concatenates_S8192x1_S8192x1_S8192x2_d1 : Shape.Concatenates [S8192x1, S8192x1] S8192x2 1
  inb_S8192x2_S8192x2_0_0 : ∀ a, (![0, 0] : Fin 2 → Nat) a + S8192x2.size a ≤ S8192x2.size a
  h_S8192x2 : 0 < S8192x2.numel
  shapeCasts_S400000x2_S800000 : S400000x2.ShapeCasts S800000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2x8192x128.size a < S2x400000x128.size a
  hwx0_0 : ∀ i : grid0.Coords, EltTy.bits .f32 = 32 ∨ (Rect.unit (s := S2x400000x128) (fun a => cc0_transform_0 i a * S2x8192x128.size a) (fun a => (Pipeline.Clip.of (cc0_transform_0 i a) (S2x8192x128.size a) (S2x400000x128.size a)).extent (S2x8192x128.size a)) fun a => Pipeline.Clip.inb (Pipeline.Clip.ok_of (hstart0_0 i a))).WholeWords (EltTy.packing .f32)
  hwxs0_0 : ∀ i : grid0.Coords, EltTy.bits .f32 = 32 ∨ (Rect.unit (s := S2x8192x128) (fun _ => 0) (fun a => (Pipeline.Clip.of (cc0_transform_0 i a) (S2x8192x128.size a) (S2x400000x128.size a)).extent (S2x8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x2.size a < S400000x2.size a
  hwx0_1 : ∀ i : grid0.Coords, EltTy.bits .f32 = 32 ∨ (Rect.unit (s := S400000x2) (fun a => cc0_transform_1 i a * S8192x2.size a) (fun a => (Pipeline.Clip.of (cc0_transform_1 i a) (S8192x2.size a) (S400000x2.size a)).extent (S8192x2.size a)) fun a => Pipeline.Clip.inb (Pipeline.Clip.ok_of (hstart0_1 i a))).WholeWords (EltTy.packing .f32)
  hwxs0_1 : ∀ i : grid0.Coords, EltTy.bits .f32 = 32 ∨ (Rect.unit (s := S8192x2) (fun _ => 0) (fun a => (Pipeline.Clip.of (cc0_transform_1 i a) (S8192x2.size a) (S400000x2.size a)).extent (S8192x2.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_v0) S2x8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S8192x2.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x800000x64 : Shape := ⟨3, ![2, 800000, 64]⟩
abbrev S1x800000x64 : Shape := ⟨3, ![1, 800000, 64]⟩
abbrev S800000x64 : Shape := ⟨2, ![800000, 64]⟩
abbrev S_ : Shape := ⟨0, ![]⟩
abbrev S800000 : Shape := ⟨1, ![800000]⟩

abbrev nBuf : Space → Nat
  | .hbm => 8
  | .vmem => 0
  | .smem => 0
  | _ => 0

abbrev bufTy : (tb : Table) → Fin (tcTables nBuf tb) → BufTy
  | .hbm, ⟨0, _⟩ => ⟨S2x800000x64, .f32⟩
  | .hbm, ⟨1, _⟩ => ⟨S1x800000x64, .f32⟩
  | .hbm, ⟨2, _⟩ => ⟨S800000x64, .f32⟩
  | .hbm, ⟨3, _⟩ => ⟨S1x800000x64, .f32⟩
  | .hbm, ⟨4, _⟩ => ⟨S800000x64, .f32⟩
  | .hbm, ⟨5, _⟩ => ⟨S800000x64, .f32⟩
  | .hbm, ⟨6, _⟩ => ⟨S_, .f32⟩
  | .hbm, ⟨7, _⟩ => ⟨S800000, .f32⟩
  | _, _ => ⟨S2x800000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  slices_S2x800000x64_S1x800000x64_0_0_0 : S2x800000x64.Slices ![0, 0, 0] S1x800000x64
  shapeCasts_S1x800000x64_S800000x64 : S1x800000x64.ShapeCasts S800000x64
  slices_S2x800000x64_S1x800000x64_1_0_0 : S2x800000x64.Slices ![1, 0, 0] S1x800000x64
  reducesTo_S800000x64_S800000_d1 : S800000x64.ReducesTo [1] S800000
  h_S_ : 0 < S_.numel

variable [Facts₀]

class Facts : Prop extends Facts₀ where

variable [Facts]
-- ==== Proof.RowDotsBodyBits.lean ====
/-
  One grid point of the row-pair dot product, as a triple about the kernel body.

  The operand's staging buffer holds a [2, 8192, 128] block: plane 0 and plane 1 of 8192 rows of 128 lanes, each
  row being two consecutive 64-element rows of the original operands laid side by side. The body multiplies the
  two planes lane by lane, sums lanes 0..63 and lanes 64..127 of every row of the product separately, and stores
  the two sums of row r as entries (r, 0) and (r, 1) of the result's [8192, 2] staging buffer. The triple below
  says exactly that: whatever the result's buffer held, it ends holding that function of the operand's buffer,
  which is itself left as it was. Nothing is assumed of the operand's contents, so the statement covers the
  last grid point too, whose buffer holds rows past the array's end that nothing names.
-/
import proofs.«147251_g7834020348429_cont_sun_m_1168_2_alg».proof.Proof.Gen.Kernel.Skeleton
import proofs.«147251_g7834020348429_cont_sun_m_1168_2_alg».proof.Proof.Gen.Kernel.Launch
import Idealize.ShloMosaic.Lib.Pipeline.FrameBody
import Idealize.ShloMosaic.Lib.Tactic

set_option maxRecDepth 16384

noncomputable section

namespace Cert.Kernel.RowDots

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Plane 0 of the operand's buffer: all rows, all lanes. -/
abbrev planeLo : Rect S2x8192x128 := Rect.unit (s := S2x8192x128) ![0, 0, 0] S1x8192x128.size inb_S2x8192x128_S1x8192x128_0_0_0
/-- Plane 1 of the operand's buffer. -/
abbrev planeHi : Rect S2x8192x128 := Rect.unit (s := S2x8192x128) ![1, 0, 0] S1x8192x128.size inb_S2x8192x128_S1x8192x128_1_0_0
/-- The whole of the result's buffer. -/
abbrev wholeOut : Rect S8192x2 := Rect.unit (s := S8192x2) ![0, 0] S8192x2.size inb_S8192x2_S8192x2_0_0

/-- What the body leaves in the result's buffer when the operand's buffer holds `x`: its one store, which covers
    the buffer, of the two half-row sums of the product of `x`'s two planes. -/
def halfRowDots (x : Vec F S2x8192x128 .f32) : Vec F S8192x2 .f32 :=
  View.canon [⟨wholeOut, k0_pay1 (View.ld x planeLo) (View.ld x planeHi)⟩]

/-- The one store covers the result's buffer. -/
theorem wholeOut_covers (p : Vec F S8192x2 .f32) (y : S8192x2.Idx) :
    ∃ pc ∈ ([⟨wholeOut, p⟩] : List (View.Piece (Elt F) S8192x2 .f32)), y ∈ pc.1.set :=
  View.cover_of_tiled [⟨wholeOut, p⟩] S8192x2.size (by rfl) y

set_option maxHeartbeats 1000000 in
/-- The body on whole staging memrefs, the operand's at contents `x` and the result's at anything: it runs to the
    continuation with the operand's buffer still at `x` and the result's at `halfRowDots x`. -/
theorem body_triple (c : Dev nD) (E : Set ℕ) (i : grid0.Coords)
    (arg1 : Memref sig .tc .vmem S2x8192x128 .f32) (harg1 : arg1.IsWhole)
    (arg2 : Memref sig .tc .vmem S8192x2 .f32) (harg2 : arg2.IsWhole)
    (x : Vec F S2x8192x128 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (halfRowDots x)) -∗ K ⟨⟩))
      ⊢ wp frame (wpE (defs₀ (F := F)) Variants.none c none) E (cc0__dot_rows_kernel i arg1 harg1 arg2 harg2) K := by
  simp only [cc0__dot_rows_kernel_eq_skeleton]; unfold cc0__dot_rows_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (wholeOut_covers _)

end Cert.Kernel.RowDots

end
-- ==== Proof.KernelFrame.lean ====
/-
  The word-level program runs to the end and leaves its argument as it was.

  The frame claims nothing about the numbers the kernel produces, so the proof data here name nothing: whatever
  the two staging buffers hold when the body is called, the body runs without a fault and leaves them holding
  something. That is all the pipeline needs to go round its 49 points, fetch every block (the last one cut at the
  array's end), write every result block back, and hand the result to the final reshape. The argument array is
  neither an array of the pipeline nor written by the reshapes around it, so it ends as it began.
-/
import proofs.«147251_g7834020348429_cont_sun_m_1168_2_alg».proof.Proof.RowDotsBodyBits
import proofs.«147251_g7834020348429_cont_sun_m_1168_2_alg».proof.Proof.Gen.Kernel.Frame

set_option maxRecDepth 16384

noncomputable section

namespace Cert.Kernel.RowDots

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Proof data that constrain nothing the body leaves: the arrays as the region finds them, every relation true. -/
def anyData (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point the body runs on whatever the two current buffers hold and hands them back. -/
theorem body_runs (c : Dev nD) : (anyData m c).BodyObligation (defs₀ (F := F)) Variants.none () Set.univ := fun t Y _ => by
  rw [bigSep_W0, bigSep_W0]
  show iprop((anyData m c).Φ t.castSucc ∗ (anyData m c).owesAt () t.castSucc
      ∗ owns (c : Thread nD τ) (st0_0 t) fullShare (Y 0) ∗ owns (c : Thread nD τ) (st0_1 t) fullShare (Y 1))
    ⊢ wp frame (wpE (defs₀ (F := F)) Variants.none c none) Set.univ (bodyAt0 t) (fun _ =>
      iprop((anyData m c).Φ t.succ ∗ (anyData m c).owesAt () t.succ
        ∗ (∃ X, ⌜True⌝ ∗ owns (c : Thread nD τ) (st0_0 t) fullShare X) ∗ (∃ X, ⌜True⌝ ∗ owns (c : Thread nD τ) (st0_1 t) fullShare X)))
  rw [show (anyData m c).Φ t.succ = (anyData m c).Φ t.castSucc from rfl,
    show (anyData m c).owesAt () t.succ = (anyData m c).owesAt () t.castSucc from rfl]
  iintro ⟨HΦ, Ho, H0, H1⟩
  iapply (body_triple c Set.univ (grid0.coords t) _ _ _ _ (Y 0) _)
  isplitl [H0]; · iexact H0
  isplitl [H1]; · iexists _; iexact H1
  iintro ⟨H0, H1⟩
  isplitl [HΦ]; · iexact HΦ
  isplitl [Ho]; · iexact Ho
  isplitl [H0]
  · iexists _; isplitr; · ipureintro; trivial
    iexact H0
  · iexists _; isplitr; · ipureintro; trivial
    iexact H1

/-- The one buffer the reshape after the region writes. -/
abbrev tailWrites : Finset (Ref sig .tc) := {main_v2}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  have : b = main_v2 := Proc.devRef_injective (τ := τ) _ hb
  rw [this]; exact Finset.mem_singleton_self _

set_option backward.isDefEq.respectTransparency.types false in
/-- Every weakly fair execution of @main ends, without a fault, with every buffer that bypasses the region and
    that the last reshape does not write at its contents on entry. -/
theorem run_main : θ_run defs (onTc (τ := τ) (main (F := F))) (s₀ m ρ)
    (Pipeline.RDat.FramePostR cfg0 (anyData m) tailWrites (fun c b => V0 m c (Proc.devRef .tc b))) :=
  Pipeline.RDat.θ_run_frame_around_T cfgs (0 : Fin 1) launch0 defs₀ Variants.none (anyData m) tailWrites m ρ main
    (hbody := body_runs m) (hshare := fun c => (anyData m c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := fun _ _ => rfl) (hΦ := fun _ _ => rfl)

/-- The frame: the argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Finset.mem_sdiff.mpr ⟨Pipeline.mem_restRefs_of main_arg0 (by decide) (by decide), by decide⟩)).trans
      (V_main_arg0 m c)) (run_main m ρ)

end Cert.Kernel.RowDots

end
-- ==== Proof.RowDotsBody.lean ====
/-
  One grid point of the row-pair dot product, as a triple about the kernel body.

  The operand's staging buffer holds a [2, 8192, 128] block: plane 0 and plane 1 of 8192 rows of 128 lanes, each
  row being two consecutive 64-element rows of the original operands laid side by side. The body multiplies the
  two planes lane by lane, sums lanes 0..63 and lanes 64..127 of every row of the product separately, and stores
  the two sums of row r as entries (r, 0) and (r, 1) of the result's [8192, 2] staging buffer. The triple below
  says exactly that: whatever the result's buffer held, it ends holding that function of the operand's buffer,
  which is itself left as it was. Nothing is assumed of the operand's contents, so the statement covers the
  last grid point too, whose buffer holds rows past the array's end that nothing names.
-/
import proofs.«147251_g7834020348429_cont_sun_m_1168_2_alg».proof.Proof.Gen.KernelIdeal.Skeleton
import proofs.«147251_g7834020348429_cont_sun_m_1168_2_alg».proof.Proof.Gen.KernelIdeal.Launch
import Idealize.ShloMosaic.Lib.Pipeline.FrameBody
import Idealize.ShloMosaic.Lib.Tactic

set_option maxRecDepth 16384

noncomputable section

namespace Cert.KernelIdeal.RowDots

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Plane 0 of the operand's buffer: all rows, all lanes. -/
abbrev planeLo : Rect S2x8192x128 := Rect.unit (s := S2x8192x128) ![0, 0, 0] S1x8192x128.size inb_S2x8192x128_S1x8192x128_0_0_0
/-- Plane 1 of the operand's buffer. -/
abbrev planeHi : Rect S2x8192x128 := Rect.unit (s := S2x8192x128) ![1, 0, 0] S1x8192x128.size inb_S2x8192x128_S1x8192x128_1_0_0
/-- The whole of the result's buffer. -/
abbrev wholeOut : Rect S8192x2 := Rect.unit (s := S8192x2) ![0, 0] S8192x2.size inb_S8192x2_S8192x2_0_0

/-- What the body leaves in the result's buffer when the operand's buffer holds `x`: its one store, which covers
    the buffer, of the two half-row sums of the product of `x`'s two planes. -/
def halfRowDots (x : Vec F S2x8192x128 .f32) : Vec F S8192x2 .f32 :=
  View.canon [⟨wholeOut, k0_pay1 (View.ld x planeLo) (View.ld x planeHi)⟩]

/-- The one store covers the result's buffer. -/
theorem wholeOut_covers (p : Vec F S8192x2 .f32) (y : S8192x2.Idx) :
    ∃ pc ∈ ([⟨wholeOut, p⟩] : List (View.Piece (Elt F) S8192x2 .f32)), y ∈ pc.1.set :=
  View.cover_of_tiled [⟨wholeOut, p⟩] S8192x2.size (by rfl) y

set_option maxHeartbeats 1000000 in
/-- The body on whole staging memrefs, the operand's at contents `x` and the result's at anything: it runs to the
    continuation with the operand's buffer still at `x` and the result's at `halfRowDots x`. -/
theorem body_triple (c : Dev nD) (E : Set ℕ) (i : grid0.Coords)
    (arg1 : Memref sig .tc .vmem S2x8192x128 .f32) (harg1 : arg1.IsWhole)
    (arg2 : Memref sig .tc .vmem S8192x2 .f32) (harg2 : arg2.IsWhole)
    (x : Vec F S2x8192x128 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (halfRowDots x)) -∗ K ⟨⟩))
      ⊢ wp frame (wpE (defs₀ (F := F)) Variants.none c none) E (cc0__dot_rows_kernel i arg1 harg1 arg2 harg2) K := by
  simp only [cc0__dot_rows_kernel_eq_skeleton]; unfold cc0__dot_rows_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (wholeOut_covers _)

end Cert.KernelIdeal.RowDots

end
-- ==== Proof.RowDotSpec.lean ====
/-
  The function both programs compute, over the extended reals, and the one regrouping between them.

  The input is a pair of 800000 x 64 arrays stacked on a leading axis of extent 2. Entry b of the result is the
  dot product of row b of the first with row b of the second: the sum over k < 64 of in(0, b, k) * in(1, b, k).
  It is a sum of 64 products and nothing else, so no finiteness of the inputs is needed anywhere: both programs
  form the same 64 products and add them, and only the grouping into buffers differs.

  The kernel sees the input as 400000 rows of 128 lanes, two original rows side by side: lane 64 h + k of row R is
  element k of original row 2 R + h. It produces, for every row R, the two half-row dot products (R, 0) and (R, 1),
  and flattening that [400000, 2] array to [800000] puts (R, h) at 2 R + h. `regroup` says that this is the
  row-wise dot product: both reshapes keep row-major positions, and
  (p * 400000 + R) * 128 + 64 h + k = (p * 800000 + 2 R + h) * 64 + k.
-/
import Idealize.ShloMosaic.PureOps.Ideal
import Idealize.ShloMosaic.Lib.ValueIdx
import Idealize.ShloMosaic.Lib.Pipeline.Value

noncomputable section

namespace Cert.RowDot

open Idealize.ShloMosaic Idealize.ShloMosaic.ValueIdx

/-- Row b of plane 0 dotted with row b of plane 1. -/
def rowDot (x : FVec Ideal ⟨3, ![2, 800000, 64]⟩ .f32) : FVec Ideal ⟨1, ![800000]⟩ .f32 :=
  fun i => ∑ k : Fin 64, x (ix3 (0 : Fin 2) (i 0) k) * x (ix3 (1 : Fin 2) (i 0) k)

/-- Lane `64 h + k` of a 128-lane row: element `k` of its half `h`. -/
def lane (h : Fin 2) (k : Fin 64) : Fin 128 := ⟨64 * h.val + k.val, by omega⟩

/-- The two half-row dot products of every 128-lane row of the paired view. -/
def pairDots (y : FVec Ideal ⟨3, ![2, 400000, 128]⟩ .f32) : FVec Ideal ⟨2, ![400000, 2]⟩ .f32 :=
  fun j => ∑ k : Fin 64, y (ix3 (0 : Fin 2) (j 0) (lane (j 1) k)) * y (ix3 (1 : Fin 2) (j 0) (lane (j 1) k))

/-- Pairing the rows, taking the half-row dot products and flattening is the row-wise dot product. -/
theorem regroup (x : FVec Ideal ⟨3, ![2, 800000, 64]⟩ .f32)
    (h1 : (⟨3, ![2, 800000, 64]⟩ : Shape).ShapeCasts ⟨3, ![2, 400000, 128]⟩)
    (h2 : (⟨2, ![400000, 2]⟩ : Shape).ShapeCasts ⟨1, ![800000]⟩) :
    shapeCast ⟨1, ![800000]⟩ (pairDots (shapeCast ⟨3, ![2, 400000, 128]⟩ x h1)) h2 = rowDot x := by
  funext i
  have hb : (i 0).val < 800000 := (i 0).isLt
  -- entry b of the flat result is entry (b / 2, b % 2) of the [400000, 2] array
  refine (shapeCast_apply _ h2 i (ix2 (⟨(i 0).val / 2, by omega⟩ : Fin 400000) (⟨(i 0).val % 2, by omega⟩ : Fin 2)) (by
    rw [Shape.rowMajor_val_two, Shape.rowMajor_val_one]
    show (i 0).val / 2 * 2 + (i 0).val % 2 = (i 0).val; omega)).trans ?_
  unfold pairDots rowDot
  refine Finset.sum_congr rfl fun k _ => ?_
  have hk : k.val < 64 := k.isLt
  -- lane 64 h + k of paired row R is element k of original row 2 R + h, in either plane
  have e : ∀ p : Fin 2, shapeCast ⟨3, ![2, 400000, 128]⟩ x h1
      (ix3 p (⟨(i 0).val / 2, by omega⟩ : Fin 400000) (lane (⟨(i 0).val % 2, by omega⟩ : Fin 2) k)) = x (ix3 p (i 0) k) := fun p =>
    shapeCast_apply x h1 _ (ix3 p (i 0) k) (by
      have hp : p.val < 2 := p.isLt
      rw [Shape.rowMajor_val_three, Shape.rowMajor_val_three]
      show (p.val * 800000 + (i 0).val) * 64 + k.val = (p.val * 400000 + (i 0).val / 2) * 128 + (64 * ((i 0).val % 2) + k.val)
      omega)
  exact congrArg₂ (· * ·) (e 0) (e 1)

end Cert.RowDot

end
-- ==== Proof.HalfRowDotsAt.lean ====
/-
  The body's result at one entry, over the extended reals.

  With the operand's buffer holding `x` (planes 0 and 1, rows r, lanes 0..127), entry (r, h) of what the body
  stores is the sum over k < 64 of x(0, r, 64 h + k) * x(1, r, 64 h + k): the product of the two planes summed
  over half h of row r. In particular it reads row r of the operand's buffer and nothing else, which is what
  lets the last grid point's unnamed rows past the array's end be ignored.
-/
import proofs.«147251_g7834020348429_cont_sun_m_1168_2_alg».proof.Proof.RowDotsBody
import proofs.«147251_g7834020348429_cont_sun_m_1168_2_alg».proof.Proof.RowDotSpec
import Idealize.ShloMosaic.Lib.ValueIdx
import Idealize.ShloMosaic.Lib.Pipeline.Value
import Idealize.ShloMosaic.PureOps.Ideal.Laws

set_option maxRecDepth 16384

noncomputable section

namespace Cert.KernelIdeal.RowDots

open Cert.KernelIdeal Cert.KernelIdeal.Gen
open Idealize.ShloMosaic Idealize.ShloMosaic.ValueIdx
open Cert.RowDot (lane)

/-- Plane 0 of the buffer read at (0, r, l) is the buffer at (0, r, l). -/
theorem ld_planeLo (x : Vec Ideal S2x8192x128 .f32) (r : Fin 8192) (l : Fin 128) :
    View.ld x planeLo (ix3 (0 : Fin 1) r l) = x (ix3 (0 : Fin 2) r l) :=
  congrArg x (funext fun a => Fin.ext (by
    match a with
    | ⟨0, _⟩ => rfl
    | ⟨1, _⟩ => show 0 + 1 * r.val = r.val; omega
    | ⟨2, _⟩ => show 0 + 1 * l.val = l.val; omega))

/-- Plane 1 read at (0, r, l) is the buffer at (1, r, l). -/
theorem ld_planeHi (x : Vec Ideal S2x8192x128 .f32) (r : Fin 8192) (l : Fin 128) :
    View.ld x planeHi (ix3 (0 : Fin 1) r l) = x (ix3 (1 : Fin 2) r l) :=
  congrArg x (funext fun a => Fin.ext (by
    match a with
    | ⟨0, _⟩ => rfl
    | ⟨1, _⟩ => show 0 + 1 * r.val = r.val; omega
    | ⟨2, _⟩ => show 0 + 1 * l.val = l.val; omega))

/-- The product of the two planes, as the body forms it, at row r and lane l. -/
theorem planes_mul_apply (v0 v2 : Vec Ideal S1x8192x128 .f32) (r : Fin 8192) (l : Fin 128) :
    mulf (F := Ideal) (s := S8192x128) (φ := .f32) (shapeCast S8192x128 v0 Facts₀.shapeCasts_S1x8192x128_S8192x128) (shapeCast S8192x128 v2 Facts₀.shapeCasts_S1x8192x128_S8192x128) (ix2 r l)
      = v0 (ix3 (0 : Fin 1) r l) * v2 (ix3 (0 : Fin 1) r l) := by
  have e : ∀ v : Vec Ideal S1x8192x128 .f32, shapeCast S8192x128 v Facts₀.shapeCasts_S1x8192x128_S8192x128 (ix2 r l) = v (ix3 (0 : Fin 1) r l) := fun v =>
    shapeCast_apply v _ (ix2 r l) (ix3 (0 : Fin 1) r l) (by
      rw [Shape.rowMajor_val_three, Shape.rowMajor_val_two]
      show ((0 : Nat) * 8192 + r.val) * 128 + l.val = r.val * 128 + l.val; omega)
  show _ * _ = _
  rw [e v0, e v2]

/-- Entry (r, h) of what the body stores: the product of the two planes summed over half `h` of row `r`. -/
theorem halfRowDots_apply (x : Vec Ideal S2x8192x128 .f32) (r : Fin 8192) (h : Fin 2) :
    halfRowDots x (ix2 r h) = ∑ k : Fin 64, x (ix3 (0 : Fin 2) r (lane h k)) * x (ix3 (1 : Fin 2) r (lane h k)) := by
  have hz : (![0, 0] : Fin 2 → Nat) = fun _ => 0 := funext fun a => by fin_cases a <;> rfl
  unfold halfRowDots
  rw [View.canon_unit_zero hz]
  unfold k0_pay1
  match h with
  | ⟨0, _⟩ =>
    -- column 0 is the first piece of the concatenation: the sum over lanes 0..63
    refine (concatenate_pair_apply_left (t := S8192x2) (s₁ := S8192x1) (s₂ := S8192x1) (1 : Fin 2) _ _ Facts₀.concatenates_S8192x1_S8192x1_S8192x2_d1 (ix2 r (0 : Fin 2)) rfl
      (ix2 r (0 : Fin 1)) (fun b => by match b with | ⟨0, _⟩ => rfl | ⟨1, _⟩ => rfl)).trans ?_
    refine (shapeCast_apply _ Facts₀.shapeCasts_S8192_S8192x1 (ix2 r (0 : Fin 1)) (ix1 r) (by
      rw [Shape.rowMajor_val_one, Shape.rowMajor_val_two]; show r.val = r.val * 1 + 0; omega)).trans ?_
    refine (Ideal.multiReduction_add_single _ _ Facts₀.reduces_S8192x64_S8192 _ _ (ix1 r)).trans ?_
    refine Finset.sum_congr rfl fun k _ => ?_
    refine (extractStridedSlice_apply ![0, 0] _ Facts₀.slices_S8192x128_o0_0_S8192x64 (Facts₀.reduces_S8192x64_S8192.lift (ix1 r) k) (ix2 r (lane 0 k)) (fun a => by
      match a with
      | ⟨0, _⟩ => show r.val = 0 + r.val; omega
      | ⟨1, _⟩ => show 64 * 0 + k.val = 0 + k.val; omega)).trans ?_
    rw [planes_mul_apply, ld_planeLo, ld_planeHi]
    rfl
  | ⟨1, _⟩ =>
    -- column 1 is the second piece: the sum over lanes 64..127
    refine (concatenate_pair_apply_right (t := S8192x2) (s₁ := S8192x1) (s₂ := S8192x1) (1 : Fin 2) _ _ Facts₀.concatenates_S8192x1_S8192x1_S8192x2_d1 (ix2 r (1 : Fin 2)) rfl rfl
      (ix2 r (0 : Fin 1)) (fun b hb => by match b with | ⟨0, _⟩ => rfl | ⟨1, _⟩ => exact absurd rfl hb) (by show 0 + 1 = 1; rfl)).trans ?_
    refine (shapeCast_apply _ Facts₀.shapeCasts_S8192_S8192x1 (ix2 r (0 : Fin 1)) (ix1 r) (by
      rw [Shape.rowMajor_val_one, Shape.rowMajor_val_two]; show r.val = r.val * 1 + 0; omega)).trans ?_
    refine (Ideal.multiReduction_add_single _ _ Facts₀.reduces_S8192x64_S8192 _ _ (ix1 r)).trans ?_
    refine Finset.sum_congr rfl fun k _ => ?_
    refine (extractStridedSlice_apply ![0, 64] _ Facts₀.slices_S8192x128_o0_64_S8192x64 (Facts₀.reduces_S8192x64_S8192.lift (ix1 r) k) (ix2 r (lane 1 k)) (fun a => by
      match a with
      | ⟨0, _⟩ => show r.val = 0 + r.val; omega
      | ⟨1, _⟩ => show 64 * 1 + k.val = 64 + k.val; omega)).trans ?_
    rw [planes_mul_apply, ld_planeLo, ld_planeHi]
    rfl

end Cert.KernelIdeal.RowDots

end
-- ==== Proof.BlockDots.lean ====
/-
  One grid point's stored block, cut to the rows inside the array, as a function of the fetched block alone.

  At grid point t the operand's buffer holds the fetched block on its rows inside the array and words nothing
  names on the rows past the array's end (only the last point has such rows). The result's write-back moves
  only the rows inside the array, and they are the same rows: the operand's block and the result's block are cut
  at the same row. Entry (r, h) of the stored block reads row r of the operand's buffer only, so on the rows
  that are written back it is the sum over k < 64 of g(0, r, 64 h + k) * g(1, r, 64 h + k), g being the fetched
  block, whatever the rows past the end hold.
-/
import proofs.«147251_g7834020348429_cont_sun_m_1168_2_alg».proof.Proof.HalfRowDotsAt
import proofs.«147251_g7834020348429_cont_sun_m_1168_2_alg».proof.Proof.Gen.KernelIdeal.Points

set_option maxRecDepth 16384

noncomputable section

namespace Cert.KernelIdeal.RowDots

open Cert.KernelIdeal Cert.KernelIdeal.Gen
open Idealize.ShloMosaic Idealize.ShloMosaic.ValueIdx
open Idealize.ShloMosaic.Pipeline (Window)
open Cert.RowDot (lane)

/-- At every grid point the operand's block keeps both planes and all 128 lanes, the result's block keeps both
    columns, and the two are cut at the same row. -/
theorem cut_sizes : ∀ t : Fin cfg0.N,
    win0_0.xsize (grid0.coords t) 0 = 2 ∧ win0_0.xsize (grid0.coords t) 2 = 128
      ∧ win0_0.xsize (grid0.coords t) 1 = win0_1.xsize (grid0.coords t) 0 ∧ win0_1.xsize (grid0.coords t) 1 = 2 :=
  (by decide +kernel : ∀ t : Fin grid0.N,
    win0_0.xsize (grid0.coords t) 0 = 2 ∧ win0_0.xsize (grid0.coords t) 2 = 128
      ∧ win0_0.xsize (grid0.coords t) 1 = win0_1.xsize (grid0.coords t) 0 ∧ win0_1.xsize (grid0.coords t) 1 = 2)

/-- Entry (p, r, l) of the operand's cut block, for r the row of an entry `x` of the result's cut block. -/
def opAt (t : Fin cfg0.N) (p : Fin 2) (x : (win0_1.xblock (grid0.coords t)).Idx) (l : Fin 128) :
    (win0_0.xblock (grid0.coords t)).Idx := fun a =>
  match a with
  | ⟨0, _⟩ => ⟨p.val, by show p.val < win0_0.xsize (grid0.coords t) 0; rw [(cut_sizes t).1]; exact p.isLt⟩
  | ⟨1, _⟩ => ⟨(x 0).val, by show (x 0).val < win0_0.xsize (grid0.coords t) 1; rw [(cut_sizes t).2.2.1]; exact (x 0).isLt⟩
  | ⟨2, _⟩ => ⟨l.val, by show l.val < win0_0.xsize (grid0.coords t) 2; rw [(cut_sizes t).2.1]; exact l.isLt⟩

/-- The column of an entry of the result's cut block. -/
def colOf (t : Fin cfg0.N) (x : (win0_1.xblock (grid0.coords t)).Idx) : Fin 2 :=
  ⟨(x 1).val, by have h : (x 1).val < win0_1.xsize (grid0.coords t) 1 := (x 1).isLt; rw [(cut_sizes t).2.2.2] at h; exact h⟩

/-- The stored block on the rows written back, from the fetched block `g`: independent of what fills the
    operand's buffer past the array's end (`d`). -/
theorem cut_halfRowDots_fill (t : Fin cfg0.N) (d : S2x8192x128.Idx → EReal) (g : (win0_0.xblock (grid0.coords t)).Idx → EReal) :
    win0_1.cut (grid0.coords t) (halfRowDots (F := Ideal) (win0_0.fill (grid0.coords t) d g))
      = fun x => ∑ k : Fin 64, g (opAt t 0 x (lane (colOf t x) k)) * g (opAt t 1 x (lane (colOf t x) k)) := by
  funext x
  have hr : (x 0).val < 8192 := Nat.lt_of_lt_of_le (x 0).isLt (win0_1.xsize_le (grid0.coords t) 0)
  show halfRowDots (F := Ideal) (win0_0.fill (grid0.coords t) d g) (win0_1.xinj (grid0.coords t) x) = _
  have ex : win0_1.xinj (grid0.coords t) x = ix2 (⟨(x 0).val, hr⟩ : Fin 8192) (colOf t x) :=
    funext fun a => Fin.ext (by match a with | ⟨0, _⟩ => rfl | ⟨1, _⟩ => rfl)
  rw [ex, halfRowDots_apply]
  refine Finset.sum_congr rfl fun k _ => ?_
  have e : ∀ p : Fin 2, win0_0.fill (grid0.coords t) d g (ix3 p (⟨(x 0).val, hr⟩ : Fin 8192) (lane (colOf t x) k))
      = g (opAt t p x (lane (colOf t x) k)) := fun p => by
    have ei : (ix3 p (⟨(x 0).val, hr⟩ : Fin 8192) (lane (colOf t x) k) : S2x8192x128.Idx)
        = win0_0.xinj (grid0.coords t) (opAt t p x (lane (colOf t x) k)) :=
      funext fun a => Fin.ext (by match a with | ⟨0, _⟩ => rfl | ⟨1, _⟩ => rfl | ⟨2, _⟩ => rfl)
    rw [ei]; exact win0_0.fill_xinj (grid0.coords t) d g _
  rw [e 0, e 1]

end Cert.KernelIdeal.RowDots

end
-- ==== Proof.IdealRun.lean ====
/-
  The idealized kernel's run, with the result array named.

  Proof data for the pipeline over the extended reals. After the body at grid point t the operand's buffer holds
  the fetched block (on the rows inside the array; the proof data fill the rest with zero, a choice nothing
  reads) and the result's buffer holds the half-row dot products of that. Both windows are stated on the rows
  their transfers move only: at the last point the operand's buffer really holds, past the array's end, words
  nothing names, and the result's buffer holds whatever the body made of them, but those rows are neither
  fetched from nor written back to the arrays, and on the rows that are, the stored block does not depend on them
  (`cut_halfRowDots_fill`). With the body's triple this gives the pipeline's obligation at every point, and the
  library's launch then runs @main: the reshape before the region, the 49 points, the reshape after it.
-/
import proofs.«147251_g7834020348429_cont_sun_m_1168_2_alg».proof.Proof.BlockDots
import proofs.«147251_g7834020348429_cont_sun_m_1168_2_alg».proof.Proof.Gen.KernelIdeal.Frame

set_option maxRecDepth 16384

noncomputable section

namespace Cert.KernelIdeal.RowDots

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The operand's block at point `t` as the fetch reads it: its part inside the array. -/
abbrev fetchedAt (c : Dev nD) (t : Fin cfg0.N) : (win0_0.xblock (grid0.coords t)).Idx → EReal := iblk m c 0 t

/-- The operand's buffer after the body at point `t`, stated on the rows inside the array: the fetched block
    (zero elsewhere, which nothing reads). -/
def opBlock (c : Dev nD) (t : Fin cfg0.N) : Vec Ideal S2x8192x128 .f32 :=
  win0_0.fill (grid0.coords t) (fun _ => (0 : EReal)) (fetchedAt m c t)

/-- The proof data: the arrays as the region finds them; after the body the operand's buffer at the fetched block
    and the result's at its half-row dot products; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => opBlock m c t
    | ⟨1, _⟩ => halfRowDots (F := Ideal) (opBlock m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_op (c : Dev nD) (t : Fin cfg0.N) : (dats m 0 c).after 0 t = opBlock m c t := by dsimp only [dats]
theorem after_out (c : Dev nD) (t : Fin cfg0.N) :
    (dats m 0 c).after 1 t = halfRowDots (F := Ideal) (opBlock m c t) := by dsimp only [dats]

/-- What the body finds in the operand's buffer: the block just fetched on the rows inside the array, anything
    (`d`) on the others. -/
theorem before_op (c : Dev nD) (t : Fin cfg0.N) (d) :
    (dats m 0 c).before 0 t d = win0_0.fill (grid0.coords t) d (fetchedAt m c t) := by
  rw [(dats m 0 c).before_fetched 0 t (fetch0_0 t)]; rfl

/-- What it finds in the result's buffer: anything (the first point, or a buffer just written back). -/
theorem before_out (c : Dev nD) (t : Fin cfg0.N) (d) : (dats m 0 c).before 1 t d = d :=
  (dats m 0 c).before_out_reset 1 rfl t (by
    by_cases h : t.val = 0
    · exact .inl h
    · exact .inr ⟨h, flush0_1 _⟩) d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: each buffer stated on the rows its window's transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_op, after_out]
  iintro ⟨HΦ, Ho, ⟨%d0, H0⟩, ⟨%d1, H1⟩⟩
  rw [before_op m c t d0, before_out m c t d1]
  iapply (body_triple (F := Ideal) c Set.univ (grid0.coords t) _ _ _ _ (win0_0.fill (grid0.coords t) d0 (fetchedAt m c t)) _)
  isplitl [H0]; · iexact H0
  isplitl [H1]; · iexists _; iexact H1
  iintro ⟨H0, H1⟩
  isplitl [HΦ]; · iexact HΦ
  isplitl [Ho]; · iexact Ho
  isplitl [H0]
  · -- the operand's buffer is as it was found: the fetched block, filled out with what it was found with
    iexists d0
    rw [show win0_0.cut (grid0.coords t) (opBlock m c t) = fetchedAt m c t from win0_0.cut_fill _ _ _]
    iexact H0
  · -- the result's buffer agrees with the named block on the rows written back, whatever the rest
    iexists halfRowDots (F := Ideal) (win0_0.fill (grid0.coords t) d0 (fetchedAt m c t))
    rw [win0_1.fill_congr_cut (grid0.coords t) (by
      unfold opBlock; rw [cut_halfRowDots_fill, cut_halfRowDots_fill])]
    iexact H1

/-- The library's body obligation, at every point. -/
theorem body_obligation (c : Dev nD) : BodyObligationLoose (dats m 0 c) (defs₀ (F := Ideal)) Variants.none () Set.univ := fun t => by
  rw [bigSep_W0, bigSep_W0]
  exact sound_body m c t

set_option backward.isDefEq.respectTransparency.types false in
/-- Every weakly fair execution of @main terminates without a fault, every array of the pipeline ends at what the
    library computes from the proof data, and every other unscoped buffer at what the reshape after the region
    makes of that. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-- The frame: the argument array ends as it was launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.RowDots

end
-- ==== Proof.IdealValue.lean ====
/-
  What the idealized kernel's result holds: the row-wise dot product of the argument.

  Three steps. (1) What grid point t writes back is block t of ONE function of the paired view y the region
  finds, `pairDots y`: entry (R, h) is the half-row dot product of row R. The operand's block t starts at row
  8192 t of y and the result's block t at row 8192 t of the result, both cut at the same row, so entry (r, h) of
  the written-back block is `pairDots y` at (8192 t + r, h). (2) The 49 blocks cover the 400000 rows: row R is
  in block R / 8192, the last block having 6784 rows. So the result array ends holding `pairDots y`.
  (3) y is the argument reshaped and the program's result is that array flattened, and the regrouping law
  turns the composite into the row-wise dot product.
-/
import proofs.«147251_g7834020348429_cont_sun_m_1168_2_alg».proof.Proof.IdealRun
import Idealize.ShloMosaic.Lib.StableHlo.Run

set_option maxRecDepth 16384

noncomputable section

namespace Cert.KernelIdeal.RowDots

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.RowDot (lane pairDots rowDot)

variable (m : (ℓ : Loc nD τ sig) → Buf (Elt Ideal) ℓ) (ρ : Dev nD → PrngReg)

/-- The paired view of the argument as the region finds it: [2, 400000, 128]. -/
abbrev paired (c : Dev nD) : FVec Ideal ⟨3, ![2, 400000, 128]⟩ .f32 := V m c main_v0

/-- The block indices over the grid: the operand's block t is planes 0..1, rows from 8192 t, lanes 0..127; the
    result's block t is rows from 8192 t, both columns; the last block has 6784 rows, the others 8192. -/
theorem block_indices : ∀ t : Fin cfg0.N,
    win0_0.index t (0 : Fin 3) = 0 ∧ win0_0.index t (1 : Fin 3) = t.val ∧ win0_0.index t (2 : Fin 3) = 0
      ∧ win0_1.index t (0 : Fin 2) = t.val ∧ win0_1.index t (1 : Fin 2) = 0
      ∧ win0_1.xsize (grid0.coords t) (0 : Fin 2) = (if t.val = 48 then 6784 else 8192)
      ∧ win0_1.xsize (grid0.coords t) (1 : Fin 2) = 2 :=
  (by decide +kernel : ∀ t : Fin grid0.N,
    win0_0.index t (0 : Fin 3) = 0 ∧ win0_0.index t (1 : Fin 3) = t.val ∧ win0_0.index t (2 : Fin 3) = 0
      ∧ win0_1.index t (0 : Fin 2) = t.val ∧ win0_1.index t (1 : Fin 2) = 0
      ∧ win0_1.xsize (grid0.coords t) (0 : Fin 2) = (if t.val = 48 then 6784 else 8192)
      ∧ win0_1.xsize (grid0.coords t) (1 : Fin 2) = 2)

/-- What point `t` writes back is block `t` of the half-row dot products of the paired view. -/
theorem flushed_eq (c : Dev nD) (t : Fin cfg0.N) :
    (dats m 0 c).flushed 1 t = ((cfg0.win 1).blk t).view.read (Elt Ideal) (pairDots (paired m c)) := by
  show win0_1.cut (grid0.coords t) ((dats m 0 c).after 1 t) = _
  rw [after_out]; unfold opBlock
  rw [cut_halfRowDots_fill]
  obtain ⟨i00, i01, i02, i10, i11, -, -⟩ := block_indices t
  funext x
  show ∑ k : Fin 64, paired m c (((cfg0.win 0).blk t).view.emb (opAt t 0 x (lane (colOf t x) k)))
        * paired m c (((cfg0.win 0).blk t).view.emb (opAt t 1 x (lane (colOf t x) k)))
      = pairDots (paired m c) (((cfg0.win 1).blk t).view.emb x)
  unfold pairDots
  refine Finset.sum_congr rfl fun k _ => ?_
  have hk : k.val < 64 := k.isLt
  have e : ∀ p : Fin 2, ((cfg0.win 0).blk t).view.emb (opAt t p x (lane (colOf t x) k))
      = ix3 p ((((cfg0.win 1).blk t).view.emb x) 0) (lane ((((cfg0.win 1).blk t).view.emb x) 1) k) := fun p => by
    funext a; apply Fin.ext
    match a with
    | ⟨0, _⟩ => show win0_0.index t (0 : Fin 3) * 2 + 1 * p.val = p.val; omega
    | ⟨1, _⟩ => show win0_0.index t (1 : Fin 3) * 8192 + 1 * (x 0).val = win0_1.index t (0 : Fin 2) * 8192 + 1 * (x 0).val; omega
    | ⟨2, _⟩ => show win0_0.index t (2 : Fin 3) * 128 + 1 * (64 * (x 1).val + k.val) = 64 * (win0_1.index t (1 : Fin 2) * 2 + 1 * (x 1).val) + k.val; omega
  rw [e 0, e 1]
  rfl

/-- An index of the result array is in point `t`'s block iff its row is among the block's rows inside the array
    (both columns are). -/
theorem mem_blk (t : Fin cfg0.N) (i : S400000x2.Idx) :
    i ∈ ((cfg0.win 1).blk t).view.set ↔ ∀ a : Fin 2, win0_1.index t a * S8192x2.size a ≤ (i a).val
      ∧ (i a).val < win0_1.index t a * S8192x2.size a + win0_1.xsize (grid0.coords t) a := by
  show i ∈ ((View.whole main_v1).slice (win0_1.rect t)).set ↔ _
  rw [View.set_slice_whole, Rect.mem_set_unit]
  exact Iff.rfl

/-- Every row is in some point's block: row R in block R / 8192. -/
theorem covered (i : S400000x2.Idx) :
    ∃ t : Fin cfg0.N, (cfg0.win 1).flush t = true ∧ i ∈ ((cfg0.win 1).blk t).view.set := by
  have hR : (i 0).val < 400000 := (i 0).isLt
  have hC : (i 1).val < 2 := (i 1).isLt
  let t : Fin cfg0.N := ⟨(i 0).val / 8192, by rw [show cfg0.N = 49 from N_0]; omega⟩
  have ht : t.val = (i 0).val / 8192 := rfl
  obtain ⟨-, -, -, i10, i11, x0, x1⟩ := block_indices t
  refine ⟨t, flush0_1 t, ?_⟩
  rw [mem_blk]
  intro a
  match a with
  | ⟨0, _⟩ =>
    show win0_1.index t (0 : Fin 2) * 8192 ≤ (i 0).val ∧ (i 0).val < win0_1.index t (0 : Fin 2) * 8192 + win0_1.xsize (grid0.coords t) (0 : Fin 2)
    rw [i10, x0, ht]
    split <;> omega
  | ⟨1, _⟩ =>
    show win0_1.index t (1 : Fin 2) * 2 ≤ (i 1).val ∧ (i 1).val < win0_1.index t (1 : Fin 2) * 2 + win0_1.xsize (grid0.coords t) (1 : Fin 2)
    rw [i11, x1]; omega

/-- The result array after the run: the half-row dot products of the paired view. -/
theorem final_out (c : Dev nD) : (dats m 0 c).arrAt 1 cfg0.N = pairDots (paired m c) :=
  (dats m 0 c).arrAt_eq_of_cover 1 (pairDots (paired m c)) (fun t _ => flushed_eq m c t) (covered)

/-- The paired view the region finds is the argument reshaped. -/
theorem paired_view (c : Dev nD) : paired m c
    = shapeCast S2x400000x128 (m ((c : Thread nD τ).loc main_arg0)) Facts₀.shapeCasts_S2x800000x64_S2x400000x128 := by
  show StableHlo.after hostOps0 (fun b => m (c, b)) (Proc.devRef .tc main_v0) = _
  after_results; rfl

/-- The program's result after the run: the row-wise dot product of the argument. -/
theorem result_eq (c : Dev nD) :
    Pipeline.afterTail₀ cfgs (dats m) 0 (V0 m) [hostOps1] c main_v2 = rowDot (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = pairDots (paired m c) :=
    (Pipeline.withArrays_arr spec0 launch0.win.arr_inj c (V0 m c) (fun w => (dats m 0 c).arrAt w cfg0.N) 1).trans (final_out m c)
  show shapeCast S800000 (Pipeline.withArrays (cfgs 0).spec c (V0 m c) (fun w => (dats m 0 c).arrAt w (cfgs 0).N) (Proc.devRef .tc main_v1))
      Facts₀.shapeCasts_S400000x2_S800000 = _
  rw [hw, paired_view]
  exact Cert.RowDot.regroup _ _ _

/-- The run re-posted: the program's result is the row-wise dot product of the argument, which is unchanged. -/
theorem run : θ_run defs (onTc (τ := τ) (main (F := Ideal))) ⟨m, fun _ => 0, ρ⟩ fun r => ∀ c : Dev nD,
      r.2.mem ((c.tc : Thread nD τ).loc main_v2) = rowDot (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c)⟩)
    (run_main m ρ)

end Cert.KernelIdeal.RowDots

end
-- ==== Proof.RefRowDot.lean ====
/-
  The reference computes the row-wise dot product.

  The reference slices the stacked input into its two planes, drops the unit axis, multiplies the planes entry
  by entry and sums each row of 64 products from the initial value zero. Read at entry b this is
  0 + sum over k of in(0, b, k) * in(1, b, k): the slices and reshapes only rename the index (a row-major
  position (b * 64 + k) splits back into b and k), and the initial value is the real number zero.
-/
import proofs.«147251_g7834020348429_cont_sun_m_1168_2_alg».proof.Proof.Gen.ReferenceIdeal.Read
import proofs.«147251_g7834020348429_cont_sun_m_1168_2_alg».proof.Proof.RowDotSpec
import Idealize.ShloMosaic.Lib.IdealHost

noncomputable section

namespace Cert.ReferenceIdeal.RowDotValue

open Cert.ReferenceIdeal Cert.ReferenceIdeal.Gen Cert.ReferenceIdeal.Read
open Idealize.ShloMosaic Idealize.ShloMosaic.ValueIdx

/-- The reference's last stage is the row-wise dot product of its argument. -/
theorem val_eq_rowDot (x0 : (⟨S2x800000x64, .f32⟩ : BufTy).Contents (Elt Ideal)) :
    val_main_v5 (F := Ideal) x0 = Cert.RowDot.rowDot x0 := by
  funext i
  have hi : (i 0).val < 800000 := (i 0).isLt
  rw [val_main_v5_apply, val_main_cst_apply, Ideal.ofBits_def, Ideal.ofBits_zero_f32, zero_add]
  unfold Cert.RowDot.rowDot
  refine Finset.sum_congr rfl fun k _ => ?_
  have hk : k.val < 64 := k.isLt
  rw [val_main_v4_apply, val_main_v1_apply, val_main_v0_apply, val_main_v3_apply, val_main_v2_apply]
  have e0 : idx_main_v0 (idx_main_v1 (idx_main_v5 i k)) = ix3 (0 : Fin 2) (i 0) k := funext fun a => Fin.ext (by
    match a with
    | ⟨0, _⟩ => rfl
    | ⟨1, _⟩ => show ((i 0).val * 64 + k.val) / 64 % 800000 = (i 0).val; omega
    | ⟨2, _⟩ => show ((i 0).val * 64 + k.val) % 64 = k.val; omega)
  have e1 : idx_main_v2 (idx_main_v3 (idx_main_v5 i k)) = ix3 (1 : Fin 2) (i 0) k := funext fun a => Fin.ext (by
    match a with
    | ⟨0, _⟩ => rfl
    | ⟨1, _⟩ => show ((i 0).val * 64 + k.val) / 64 % 800000 = (i 0).val; omega
    | ⟨2, _⟩ => show ((i 0).val * 64 + k.val) % 64 = k.val; omega)
  rw [e0, e1]
  rfl

end Cert.ReferenceIdeal.RowDotValue

end
-- ==== Proof.lean ====
/-
  Row-wise dot products: a kernel that pairs rows up against the plain sum.

  The input is two 800000 x 64 arrays stacked on an axis of extent 2, and the result is, for every row b, the sum
  over k < 64 of in(0, b, k) * in(1, b, k). The reference multiplies the two arrays and sums each row. The kernel
  views the input as 400000 rows of 128 lanes (rows 2 R and 2 R + 1 side by side), walks it in 49 blocks of 8192
  such rows, the last block holding only 6784 rows of the array, forms in each block the product of the two planes
  and the two 64-lane sums of every row, and flattens the [400000, 2] result to [800000].

  Over the extended reals the two are the same sum of the same 64 products, term for term; only the bookkeeping
  differs: lane 64 h + k of paired row R is element k of row 2 R + h, and (R, h) flattens to 2 R + h
  (`Cert.RowDot.regroup`). No law of arithmetic beyond that is used, so the inputs' finiteness is never opened.

  The last block overhangs the array. Its rows past the array's end are fetched from nowhere and written back
  nowhere; the buffer rows there hold words nothing names. Each stored row reads its own operand row only, so
  the rows that are written back do not see them. Over the extended reals that is how the kernel's result is
  named (`Cert.KernelIdeal.RowDots.run`). At the word level a lane sum is not known to read its own row only, so
  there the run is proved without naming what the kernel stores (`Cert.Kernel.RowDots.frame`), which is all the
  claim that the argument ends unchanged needs. The idealized kernel is the kernel's own text, so nothing is
  owed for the idealization.
-/
import proofs.«147251_g7834020348429_cont_sun_m_1168_2_alg».proof.Defs
import proofs.«147251_g7834020348429_cont_sun_m_1168_2_alg».proof.Proof.Gen.Kernel
import proofs.«147251_g7834020348429_cont_sun_m_1168_2_alg».proof.Proof.Gen.KernelIdeal
import proofs.«147251_g7834020348429_cont_sun_m_1168_2_alg».proof.Proof.Gen.ReferenceIdeal
import proofs.«147251_g7834020348429_cont_sun_m_1168_2_alg».proof.Proof.Gen.ReferenceIdeal.Run
import proofs.«147251_g7834020348429_cont_sun_m_1168_2_alg».proof.Proof.Gen.ReferenceIdeal.Read
import proofs.«147251_g7834020348429_cont_sun_m_1168_2_alg».proof.Proof.Gen.Pre_finite_inputs
import proofs.«147251_g7834020348429_cont_sun_m_1168_2_alg».proof.Proof.KernelFrame
import proofs.«147251_g7834020348429_cont_sun_m_1168_2_alg».proof.Proof.IdealValue
import proofs.«147251_g7834020348429_cont_sun_m_1168_2_alg».proof.Proof.RefRowDot
import Idealize.ShloMosaic.Adequacy
import Idealize.ShloMosaic.Init

noncomputable section

namespace Cert.Proof

open Idealize.ShloMosaic Idealize.SL.Sem

/-- The word-level kernel runs and leaves its argument unchanged. -/
theorem frame_kernel : Cert.frame_Kernel := fun m ρ _ => Cert.Kernel.RowDots.frame m ρ

/-- So does the kernel over the extended reals. -/
theorem frame_kernelIdeal : Cert.frame_KernelIdeal := fun m ρ _ => Cert.KernelIdeal.RowDots.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the row-wise dot product of the argument. -/
theorem algebraic : Cert.algebraic_KernelIdeal_ReferenceIdeal := by
  intro m ρ m' ρ' _ hagree
  refine ⟨fun c => Cert.RowDot.rowDot (m ((c.tc : Thread Cert.KernelIdeal.nD Cert.KernelIdeal.τ).loc Cert.KernelIdeal.main_arg0)),
    Cert.KernelIdeal.RowDots.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RowDotValue.val_eq_rowDot, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
